-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1000000 : Shape := ⟨1, ![1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg3 : IVec S1000000 32) (main_v28 : IVec S_ 1) (main_v33 : IVec S1000000 1) : IVec S_ 1 :=
  let main_c_12 : IVec S_ 1 := constantI S_ 1 1#1
  let main_v34 : IVec S_ 1 := (fun x v => Host.reduce IntOp.andi x v reducesTo_S1000000_S_d0 h_S_) main_v33 main_c_12
  let main_v35 : IVec S_ 1 := andi main_v28 main_v34
  let main_c_13 : IVec S_ 32 := constantI S_ 32 0#32
  let main_v36 : IVec S1000000 32 := broadcastInDim S1000000 ![] bcast_S_S1000000 main_c_13
  let main_v37 : IVec S1000000 1 := cmpi .sge main_arg3 main_v36
  let main_c_14 : IVec S_ 32 := constantI S_ 32 50000#32
  let main_v38 : IVec S1000000 32 := broadcastInDim S1000000 ![] bcast_S_S1000000 main_c_14
  let main_v39 : IVec S1000000 1 := cmpi .slt main_arg3 main_v38
  let main_v40 : IVec S1000000 1 := andi main_v37 main_v39
  let main_c_15 : IVec S_ 1 := constantI S_ 1 1#1
  let main_v41 : IVec S_ 1 := (fun x v => Host.reduce IntOp.andi x v reducesTo_S1000000_S_d0 h_S_) main_v40 main_c_15
  let main_v42 : IVec S_ 1 := andi main_v35 main_v41
  main_v42

def fn_part1 {F : FTy → Type} [FloatOps F] (main_arg2 : IVec S1000000 32) (main_arg3 : IVec S1000000 32) (main_arg6 : FVec F S1x128 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S1000000 32 := broadcastInDim S1000000 ![] bcast_S_S1000000 main_c_10
  let main_v30 : IVec S1000000 1 := cmpi .sge main_arg2 main_v29
  let main_c_11 : IVec S_ 32 := constantI S_ 32 100000#32
  let main_v31 : IVec S1000000 32 := broadcastInDim S1000000 ![] bcast_S_S1000000 main_c_11
  let main_v32 : IVec S1000000 1 := cmpi .slt main_arg2 main_v31
  let main_v33 : IVec S1000000 1 := andi main_v30 main_v32
  fn_part2 (F := F) main_arg3 main_v28 main_v33

def fn {F : FTy → Type} [FloatOps F] (main_arg0 : FVec F S100000x128 .f32) (main_arg1 : FVec F S50000x128 .f32) (main_arg2 : IVec S1000000 32) (main_arg3 : IVec S1000000 32) (main_arg4 : FVec F S128x256 .f32) (main_arg5 : FVec F S128 .f32) (main_arg6 : FVec F S1x128 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_v13 main_v16
-- ==== Kernel.lean ====
abbrev S100000x128 : Shape := ⟨2, ![100000, 128]⟩
abbrev S50000x128 : Shape := ⟨2, ![50000, 128]⟩
abbrev S1000000 : Shape := ⟨1, ![1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S1015808 : Shape := ⟨1, ![1015808]⟩
abbrev S1015808x1 : Shape := ⟨2, ![1015808, 1]⟩
abbrev S1x1 : Shape := ⟨2, ![1, 1]⟩
abbrev S1015808x128 : Shape := ⟨2, ![1015808, 128]⟩
abbrev S256x128 : Shape := ⟨2, ![256, 128]⟩
abbrev S8192x128 : Shape := ⟨2, ![8192, 128]⟩
abbrev S8192 : Shape := ⟨1, ![8192]⟩
abbrev S8192x256 : Shape := ⟨2, ![8192, 256]⟩

abbrev nBuf : Space → Nat
  | .hbm => 67
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S_, .i32⟩
  | .hbm, ⟨9, _⟩ => ⟨S_, .i32⟩
  | .hbm, ⟨10, _⟩ => ⟨S1015808, .i32⟩
  | .hbm, ⟨11, _⟩ => ⟨S_, .i32⟩
  | .hbm, ⟨12, _⟩ => ⟨S_, .i32⟩
  | .hbm, ⟨13, _⟩ => ⟨S1015808, .i32⟩
  | .hbm, ⟨14, _⟩ => ⟨S_, .i32⟩
  | .hbm, ⟨15, _⟩ => ⟨S1015808, .i32⟩
  | .hbm, ⟨16, _⟩ => ⟨S1015808, .i1⟩
  | .hbm, ⟨17, _⟩ => ⟨S_, .i32⟩
  | .hbm, ⟨18, _⟩ => ⟨S1015808, .i32⟩
  | .hbm, ⟨19, _⟩ => ⟨S1015808, .i32⟩
  | .hbm, ⟨20, _⟩ => ⟨S1015808, .i32⟩
  | .hbm, ⟨21, _⟩ => ⟨S1015808x1, .i32⟩
  | .hbm, ⟨22, _⟩ => ⟨S1, .i32⟩
  | .hbm, ⟨23, _⟩ => ⟨S_, .i32⟩
  | .hbm, ⟨24, _⟩ => ⟨S1015808x1, .i32⟩
  | .hbm, ⟨25, _⟩ => ⟨S1015808x1, .i1⟩
  | .hbm, ⟨26, _⟩ => ⟨S1x1, .i32⟩
  | .hbm, ⟨27, _⟩ => ⟨S1015808x1, .i32⟩
  | .hbm, ⟨28, _⟩ => ⟨S1015808x1, .i1⟩
  | .hbm, ⟨29, _⟩ => ⟨S1015808x1, .i1⟩
  | .hbm, ⟨30, _⟩ => ⟨S_, .i1⟩
  | .hbm, ⟨31, _⟩ => ⟨S1015808, .i1⟩
  | .hbm, ⟨32, _⟩ => ⟨S1015808x128, .f32⟩
  | .hbm, ⟨33, _⟩ => ⟨S1015808x128, .i1⟩
  | .hbm, ⟨34, _⟩ => ⟨S_, .f32⟩
  | .hbm, ⟨35, _⟩ => ⟨S1015808x128, .f32⟩
  | .hbm, ⟨36, _⟩ => ⟨S1015808x128, .f32⟩
  | .hbm, ⟨37, _⟩ => ⟨S1015808x128, .bf16⟩
  | .hbm, ⟨38, _⟩ => ⟨S_, .i32⟩
  | .hbm, ⟨39, _⟩ => ⟨S1015808, .i32⟩
  | .hbm, ⟨40, _⟩ => ⟨S1015808, .i1⟩
  | .hbm, ⟨41, _⟩ => ⟨S_, .i32⟩
  | .hbm, ⟨42, _⟩ => ⟨S1015808, .i32⟩
  | .hbm, ⟨43, _⟩ => ⟨S1015808, .i32⟩
  | .hbm, ⟨44, _⟩ => ⟨S1015808, .i32⟩
  | .hbm, ⟨45, _⟩ => ⟨S1015808x1, .i32⟩
  | .hbm, ⟨46, _⟩ => ⟨S1, .i32⟩
  | .hbm, ⟨47, _⟩ => ⟨S_, .i32⟩
  | .hbm, ⟨48, _⟩ => ⟨S1015808x1, .i32⟩
  | .hbm, ⟨49, _⟩ => ⟨S1015808x1, .i1⟩
  | .hbm, ⟨50, _⟩ => ⟨S1x1, .i32⟩
  | .hbm, ⟨51, _⟩ => ⟨S1015808x1, .i32⟩
  | .hbm, ⟨52, _⟩ => ⟨S1015808x1, .i1⟩
  | .hbm, ⟨53, _⟩ => ⟨S1015808x1, .i1⟩
  | .hbm, ⟨54, _⟩ => ⟨S_, .i1⟩
  | .hbm, ⟨55, _⟩ => ⟨S1015808, .i1⟩
  | .hbm, ⟨56, _⟩ => ⟨S1015808x128, .f32⟩
  | .hbm, ⟨57, _⟩ => ⟨S1015808x128, .i1⟩
  | .hbm, ⟨58, _⟩ => ⟨S_, .f32⟩
  | .hbm, ⟨59, _⟩ => ⟨S1015808x128, .f32⟩
  | .hbm, ⟨60, _⟩ => ⟨S1015808x128, .f32⟩
  | .hbm, ⟨61, _⟩ => ⟨S1015808x128, .bf16⟩
  | .hbm, ⟨62, _⟩ => ⟨S256x128, .f32⟩
  | .hbm, ⟨63, _⟩ => ⟨S256x128, .bf16⟩
  | .hbm, ⟨64, _⟩ => ⟨S128, .f32⟩
  | .hbm, ⟨65, _⟩ => ⟨S1015808, .f32⟩
  | .hbm, ⟨66, _⟩ => ⟨S1000000, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S256x128, .bf16⟩
  | .local _ .vmem, ⟨5, _⟩ => ⟨S128, .f32⟩
  | .local _ .vmem, ⟨6, _⟩ => ⟨S128, .f32⟩
  | .local _ .vmem, ⟨7, _⟩ => ⟨S1, .f32⟩
  | .local _ .vmem, ⟨8, _⟩ => ⟨S8192, .f32⟩
  | .local _ .vmem, ⟨9, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_c_1 : Ref sig .tc := ⟨.hbm, 22, rfl⟩
abbrev main_call2_c_2 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_3 : Ref sig .tc := ⟨.hbm, 30, rfl⟩
abbrev main_call2_v12 : Ref sig .tc := ⟨.hbm, 31, rfl⟩
abbrev main_call2_v13 : Ref sig .tc := ⟨.hbm, 32, rfl⟩
abbrev main_call2_v14 : Ref sig .tc := ⟨.hbm, 33, rfl⟩
abbrev main_call2_cst : Ref sig .tc := ⟨.hbm, 34, rfl⟩
abbrev main_call2_v15 : Ref sig .tc := ⟨.hbm, 35, rfl⟩
abbrev main_v2 : Ref sig .tc := ⟨.hbm, 36, rfl⟩
abbrev main_v3 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_v14 : Ref sig .tc := ⟨.hbm, 57, rfl⟩
abbrev main_call3_cst : Ref sig .tc := ⟨.hbm, 58, rfl⟩
abbrev main_call3_v15 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 62], ![false, false]⟩

def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  ![v1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S1000000_S1015808_0158080 : S1000000.Pads (![0] : Fin 1 → Nat) ![15808] ![0] S1015808
  h_S_ : 0 < S_.numel
  bcast_S_S1015808 : S_.BroadcastsInDim S1015808 (![] : Fin 0 → Fin S1015808.rank)
  bcast_S1015808_S1015808x1_0 : S1015808.BroadcastsInDim S1015808x1 (![0] : Fin 1 → Fin S1015808x1.rank)
  bcast_S_S1015808x1 : S_.BroadcastsInDim S1015808x1 (![] : Fin 0 → Fin S1015808x1.rank)
  bcast_S1_S1x1_1 : S1.BroadcastsInDim S1x1 (![1] : Fin 1 → Fin S1x1.rank)
  bcast_S1x1_S1015808x1_0_1 : S1x1.BroadcastsInDim S1015808x1 (![0, 1] : Fin 2 → Fin S1015808x1.rank)
  reducesTo_S1015808x1_S1015808_d1 : S1015808x1.ReducesTo [1] S1015808
  bcast_S1015808_S1015808x128_0 : S1015808.BroadcastsInDim S1015808x128 (![0] : Fin 1 → Fin S1015808x128.rank)
  bcast_S_S1015808x128 : S_.BroadcastsInDim S1015808x128 (![] : Fin 0 → Fin S1015808x128.rank)
  bitsLt_bf16_f32 : FTy.bits .bf16 < FTy.bits .f32
  transposes_S128x256_S256x128_1_0 : S128x256.Transposes [1, 0] S256x128
  shapeCasts_S1x128_S128 : S1x128.ShapeCasts S128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  concatenates_S8192x128_S8192x128_S8192x256_d1 : Shape.Concatenates [S8192x128, S8192x128] S8192x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S128_S128 : S128.ShapeCasts S128
  reduces_S8192x128_S8192 : S8192x128.Reduces [1] S8192
  inb_S1_S1_0 : ∀ a, (![0] : Fin 1 → Nat) a + S1.size a ≤ S1.size a
  h_S1 : 0 < S1.numel
  inpos_S1_p0 : ∀ a, (![0] : Fin 1 → Nat) a < S1.size a
  inb_S8192_S8192_0 : ∀ a, (![0] : Fin 1 → Nat) a + S8192.size a ≤ S8192.size a
  h_S8192 : 0 < S8192.numel
  slices_S1015808_S1000000_0 : S1015808.Slices ![0] S1000000
  gather_S100000x128_S1015808x1_S1015808x128_1_0_n_n_0_1_1128_wf : GatherDims.WF S100000x128 S1015808x1 S1015808x128 [1] [0] [] [0] [] 1 ![1, 128]
  gather_S50000x128_S1015808x1_S1015808x128_1_0_n_n_0_1_1128_wf : GatherDims.WF S50000x128 S1015808x1 S1015808x128 [1] [0] [] [0] [] 1 ![1, 128]
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1015808x128.size a
  hwx0_0 : ∀ i : grid0.Coords, EltTy.bits .bf16 = 32 ∨ (Rect.block (s := S1015808x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1015808x128.size a
  hwx0_1 : ∀ i : grid0.Coords, EltTy.bits .bf16 = 32 ∨ (Rect.block (s := S1015808x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S1015808.size a
  hwx0_6 : ∀ i : grid0.Coords, EltTy.bits .f32 = 32 ∨ (Rect.block (s := S1015808) S8192.size (cc0_transform_6 i) (hinb0_6 i)).WholeWords (EltTy.packing .f32)

variable [Facts₀]

def gather_S100000x128_S1015808x1_S1015808x128_1_0_n_n_0_1_1128 : GatherDims S100000x128 S1015808x1 S1015808x128 where
  offsetDims := [1]
  collapsedSliceDims := [0]
  operandBatchingDims := []
  startIndicesBatchingDims := []
  startIndexMap := [0]
  indexVectorDim := 1
  sliceSizes := ![1, 128]
  wf := gather_S100000x128_S1015808x1_S1015808x128_1_0_n_n_0_1_1128_wf
def gather_S50000x128_S1015808x1_S1015808x128_1_0_n_n_0_1_1128 : GatherDims S50000x128 S1015808x1 S1015808x128 where
  offsetDims := [1]
  collapsedSliceDims := [0]
  operandBatchingDims := []
  startIndicesBatchingDims := []
  startIndexMap := [0]
  indexVectorDim := 1
  sliceSizes := ![1, 128]
  wf := gather_S50000x128_S1015808x1_S1015808x128_1_0_n_n_0_1_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_v3) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1000000 : Shape := ⟨1, ![1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x128, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S1000000x256, .f32⟩
  | .hbm, ⟨27, _⟩ => ⟨S256x128, .f32⟩
  | .hbm, ⟨28, _⟩ => ⟨S1000000x128, .f32⟩
  | .hbm, ⟨29, _⟩ => ⟨S1x128, .f32⟩
  | .hbm, ⟨30, _⟩ => ⟨S1000000x128, .f32⟩
  | .hbm, ⟨31, _⟩ => ⟨S1000000x128, .f32⟩
  | .hbm, ⟨32, _⟩ => ⟨S_, .f32⟩
  | .hbm, ⟨33, _⟩ => ⟨S1000000x128, .f32⟩
  | .hbm, ⟨34, _⟩ => ⟨S1000000x128, .f32⟩
  | .hbm, ⟨35, _⟩ => ⟨S128x1, .f32⟩
  | .hbm, ⟨36, _⟩ => ⟨S1000000x1, .f32⟩
  | .hbm, ⟨37, _⟩ => ⟨S1x1, .f32⟩
  | .hbm, ⟨38, _⟩ => ⟨S1000000x1, .f32⟩
  | .hbm, ⟨39, _⟩ => ⟨S1000000x1, .f32⟩
  | .hbm, ⟨40, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  transposes_S128x256_S256x128_1_0 : S128x256.Transposes [1, 0] S256x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S1x128_S128x1_1_0 : S1x128.Transposes [1, 0] S128x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.EdgeScore.lean ====
/-
  The score of one edge, as a function of two embedding rows and the weights of a two-layer perceptron.

  An edge joins a user and a movie. Their embedding rows u, v (128 entries each) are laid side by side into one row of
  256 entries; the first layer has 128 hidden units, unit k being the larger of 0 and
      (sum over q < 256 of joined(q) · W(k, q)) + b(k),
  and the score is (sum over k < 128 of hidden(k) · w(k)) + c. Every operation is the extended reals' own; sums are
  finite sums in the order of their index sets, which both programs use.

  The tables are read by index words: row r of a table of N rows, and a row of zeros if r is no row (no program reads
  there once the index words are known to name rows).
-/
import Idealize.ShloMosaic.PureOps.Ideal
import Idealize.ShloMosaic.Lib.ValueIdx

noncomputable section

namespace Cert.EdgeScore

open Idealize.ShloMosaic Idealize.ShloMosaic.ValueIdx

/-- The two rows side by side: entries 0..127 are u, entries 128..255 are v. -/
def joined (u v : Fin 128 → EReal) (q : Fin 256) : EReal :=
  if h : q.val < 128 then u ⟨q.val, h⟩ else v ⟨q.val - 128, by omega⟩

/-- Hidden unit k: the rectified affine form of the joined row. -/
def hiddenUnit (u v : Fin 128 → EReal) (W : Fin 128 → Fin 256 → EReal) (b : Fin 128 → EReal) (k : Fin 128) : EReal :=
  max ((∑ q : Fin 256, joined u v q * W k q) + b k) 0

/-- The edge's score: the affine form of the hidden units. -/
def score (u v : Fin 128 → EReal) (W : Fin 128 → Fin 256 → EReal) (b w : Fin 128 → EReal) (c : EReal) : EReal :=
  (∑ k : Fin 128, hiddenUnit u v W b k * w k) + c

/-- Row r of a table of N rows of 128 entries; zeros when r is no row. -/
def rowAt {N : Nat} (x : (⟨2, ![N, 128]⟩ : Shape).Idx → EReal) (r : Nat) (j : Fin 128) : EReal :=
  if h : r < N then x (ix2 ⟨r, h⟩ j) else 0

theorem rowAt_of_lt {N : Nat} (x : (⟨2, ![N, 128]⟩ : Shape).Idx → EReal) (r : Nat) (h : r < N) :
    rowAt x r = fun j => x (ix2 ⟨r, h⟩ j) := by
  funext j
  exact dif_pos h

/-- The scores of all the edges: edge e joins user row[e] and movie col[e]. -/
def edgeScores (zu : (⟨2, ![100000, 128]⟩ : Shape).Idx → EReal) (zm : (⟨2, ![50000, 128]⟩ : Shape).Idx → EReal)
    (row col : (⟨1, ![1000000]⟩ : Shape).Idx → BitVec 32)
    (W1 : (⟨2, ![128, 256]⟩ : Shape).Idx → EReal) (b1 : (⟨1, ![128]⟩ : Shape).Idx → EReal)
    (W2 : (⟨2, ![1, 128]⟩ : Shape).Idx → EReal) (b2 : (⟨1, ![1]⟩ : Shape).Idx → EReal) :
    (⟨1, ![1000000]⟩ : Shape).Idx → EReal :=
  fun i => score (rowAt zu (row i).toNat) (rowAt zm (col i).toNat) (fun k q => W1 (ix2 k q)) (fun k => b1 (ix1 k))
    (fun k => W2 (ix2 0 k)) (b2 (ix1 0))

end Cert.EdgeScore

end
-- ==== Proof.IndexRange.lean ====
/-
  What the precondition says of the two index arrays: every word of row lies in [0, 100000) and every word of col in
  [0, 50000), read as signed integers.

  The precondition is one bit: the conjunction of "every entry finite" for the float inputs and, for each index array,
  "every word is at least 0 and below the table's height". A conjunction of bits that is 1 has every conjunct 1; an
  "all" over an array that is 1 has a 1 at every index; and the two signed comparisons' bits at an index say the word
  lies in the range.
-/
import proofs.«425532_j68865505624265_4_alg».proof.Defs
import proofs.«425532_j68865505624265_4_alg».proof.Proof.Gen.Pre_finite_inputs
import Idealize.ShloMosaic.Lib.ReduceAll
import Idealize.ShloMosaic.Lib.ValueIdx

noncomputable section

namespace Cert.IndexRange

open Idealize.ShloMosaic Idealize.ShloMosaic.ValueIdx Cert.Pre_finite_inputs Cert.Pre_finite_inputs.Gen

instance : Subsingleton S_.Idx := ⟨fun a b => funext fun d => d.elim0⟩

theorem ofBool_eq_one (b : Bool) : BitVec.ofBool b = 1#1 ↔ b = true := by cases b <;> decide

/-- A word that passes "at least 0" and "below n", both read signed, lies in [0, n). -/
theorem range_of_bits (v n : BitVec 32)
    (h : IntOp.andi (IntOp.cmpi .sge v 0#32) (IntOp.cmpi .slt v n) = 1#1) : 0 ≤ v.toInt ∧ v.toInt < n.toInt := by
  obtain ⟨h0, h1⟩ := IntOp.andi_eq_one.1 h
  unfold IntOp.cmpi at h0 h1
  rw [ofBool_eq_one] at h0 h1
  simp only [BitVec.slt, BitVec.sle, BitVec.toInt_zero, decide_eq_true_eq] at h0 h1
  exact ⟨h0, h1⟩

/-- THE INDEX RANGES the precondition states. -/
theorem index_ranges {F : FTy → Type} [FloatOps F] (a0 : FVec F S100000x128 .f32) (a1 : FVec F S50000x128 .f32)
    (a2 a3 : IVec S1000000 32) (a4 : FVec F S128x256 .f32) (a5 : FVec F S128 .f32) (a6 : FVec F S1x128 .f32)
    (a7 : FVec F S1 .f32) (h : fn (F := F) a0 a1 a2 a3 a4 a5 a6 a7 = fun _ => 1#1) :
    (∀ i, 0 ≤ (a2 i).toInt ∧ (a2 i).toInt < 100000) ∧ (∀ i, 0 ≤ (a3 i).toInt ∧ (a3 i).toInt < 50000) := by
  have e := congrFun h ix0
  dsimp only [fn, fn_part1, fn_part2] at e
  obtain ⟨e1, hc⟩ := IntOp.andi_eq_one.1 e
  obtain ⟨-, hr⟩ := IntOp.andi_eq_one.1 e1
  refine ⟨fun i => ?_, fun i => ?_⟩
  · have b := Host.reduce_andi_all _ _ _ _ ix0 hr i
    exact range_of_bits (a2 i) 100000#32 b
  · have b := Host.reduce_andi_all _ _ _ _ ix0 hc i
    exact range_of_bits (a3 i) 50000#32 b

end Cert.IndexRange

end
-- ==== Proof.JoinedRows.lean ====
/-
  Two arrays of M rows and 128 columns laid side by side along the columns: row e of the result, at column q, is the
  joined row of the two operands' rows e. Columns below 128 fall in the first operand at the same column; the others in
  the second, 128 columns earlier.
-/
import proofs.«425532_j68865505624265_4_alg».proof.Proof.EdgeScore
import Idealize.ShloMosaic.Lib.Pipeline.Value

noncomputable section

namespace Cert.EdgeScore

open Idealize.ShloMosaic Idealize.ShloMosaic.ValueIdx

theorem concatenate_cols_apply {M : Nat} (a b : (⟨2, ![M, 128]⟩ : Shape).Idx → EReal)
    (h : Shape.Concatenates [(⟨2, ![M, 128]⟩ : Shape), (⟨2, ![M, 128]⟩ : Shape)] (⟨2, ![M, 256]⟩ : Shape) 1)
    (e : Fin M) (q : Fin 256) :
    concatenate (⟨2, ![M, 256]⟩ : Shape) 1 [⟨(⟨2, ![M, 128]⟩ : Shape), a⟩, ⟨(⟨2, ![M, 128]⟩ : Shape), b⟩] h (ix2 e q)
      = joined (fun j => a (ix2 e j)) (fun j => b (ix2 e j)) q := by
  unfold joined
  by_cases hq : q.val < 128
  · rw [dif_pos hq]
    exact concatenate_pair_apply_left (1 : Fin 2) a b h (ix2 e q) rfl (ix2 e ⟨q.val, hq⟩)
      (fun c => match c with | ⟨0, _⟩ => rfl | ⟨1, _⟩ => rfl)
  · rw [dif_neg hq]
    exact concatenate_pair_apply_right (1 : Fin 2) a b h (ix2 e q) rfl rfl (ix2 e ⟨q.val - 128, by omega⟩)
      (fun c hc => match c, hc with | ⟨0, _⟩, _ => rfl | ⟨1, _⟩, hc => absurd rfl hc)
      (by show (q.val - 128) + 128 = q.val; omega)

end Cert.EdgeScore

end
-- ==== Proof.IndexWords.lean ====
/-
  Index words: 32-bit words read as signed integers, as the two programs test and use them.

  A word v in [0, n) (signed) is not below the zero word, so "add the table's height when negative" leaves it alone;
  read unsigned it is the same number, below n; and it passes the test "at least 0 and at most top" whenever
  n − 1 ≤ top.
-/
import Idealize.ShloMosaic.PureOps.Ideal
import Idealize.ShloMosaic.Lib.ValueIdx
import Idealize.ShloMosaic.Lib.Affine

noncomputable section

namespace Cert.EdgeScore

open Idealize.ShloMosaic

theorem ofBool_eq_one (b : Bool) : BitVec.ofBool b = 1#1 ↔ b = true := by cases b <;> decide

/-- A word that is not negative when read signed is not below the zero word. -/
theorem not_slt_zero (v : BitVec 32) (h0 : 0 ≤ v.toInt) : IntOp.cmpi .slt v 0#32 = 0#1 := by
  unfold IntOp.cmpi
  have : v.slt 0#32 = false := by
    simp only [BitVec.slt, BitVec.toInt_zero, decide_eq_false_iff_not, not_lt]
    exact h0
  rw [this]
  rfl

/-- So the wrap of a negative index by the table's height leaves it alone. -/
theorem wrap_of_nonneg (v n : BitVec 32) (h0 : 0 ≤ v.toInt) :
    Scalar.select (IntOp.cmpi .slt v 0#32) (IntOp.addi v n) v = v := by
  rw [not_slt_zero v h0]
  exact ValueIdx.select_zero _ _

/-- A word in [0, n) read signed is below n read unsigned. -/
theorem toNat_lt_of_range (v : BitVec 32) (n : Nat) (h0 : 0 ≤ v.toInt) (h1 : v.toInt < n) : v.toNat < n := by
  have h32 := v.isLt
  unfold BitVec.toInt at h0 h1
  split at h1 <;> simp at h0 h1 <;> omega

/-- A word in [0, top] read signed passes both signed tests "at least 0" and "at most top". -/
theorem in_range_bits (v top : BitVec 32) (h0 : 0 ≤ v.toInt) (h1 : v.toInt ≤ top.toInt) :
    IntOp.andi (IntOp.andi (IntOp.cmpi .sge v 0#32) (IntOp.cmpi .sle v top)) 1#1 = 1#1 := by
  have e0 : IntOp.cmpi .sge v 0#32 = 1#1 := by
    unfold IntOp.cmpi
    rw [ofBool_eq_one]
    simp only [BitVec.sle, BitVec.toInt_zero, decide_eq_true_eq]
    exact h0
  have e1 : IntOp.cmpi .sle v top = 1#1 := by
    unfold IntOp.cmpi
    rw [ofBool_eq_one]
    simp only [BitVec.sle, decide_eq_true_eq]
    exact h1
  rw [e0, e1]
  decide

end Cert.EdgeScore

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.RefEdges.lean ====
/-
  The reference, read edge by edge: its result at edge e is the score of row row[e] of the user table and row col[e]
  of the movie table.

  The reference wraps a negative index word by the table's height before it gathers; a word that is not negative is
  left alone, and a word below the table's height names the row the gather reads (no clamping happens). The two gathered
  arrays are laid side by side, multiplied by the transposed first-layer weights (a sum over the 256 joined columns),
  shifted by the bias, rectified, multiplied by the second layer's one row (a sum over the 128 hidden units) and
  shifted by the last bias: the score of EdgeScore.lean, term for term.
-/
import proofs.«425532_j68865505624265_4_alg».proof.Defs
import proofs.«425532_j68865505624265_4_alg».proof.Proof.Gen.ReferenceIdeal.Run
import proofs.«425532_j68865505624265_4_alg».proof.Proof.Gen.ReferenceIdeal.Read
import proofs.«425532_j68865505624265_4_alg».proof.Proof.EdgeScore
import proofs.«425532_j68865505624265_4_alg».proof.Proof.JoinedRows
import proofs.«425532_j68865505624265_4_alg».proof.Proof.IndexWords
import proofs.«425532_j68865505624265_4_alg».proof.Proof.LibScatterGather2
import Idealize.ShloMosaic.Lib.ValueIdx
import Idealize.ShloMosaic.Lib.Pipeline.Value
import Idealize.ShloMosaic.PureOps.Ideal.Laws

noncomputable section

namespace Cert.RefEdges

open Cert.ReferenceIdeal Cert.ReferenceIdeal.Gen Cert.ReferenceIdeal.Read
open Idealize.ShloMosaic Idealize.ShloMosaic.ValueIdx Cert.EdgeScore

variable (x0 : (⟨S100000x128, .f32⟩ : BufTy).Contents (Elt Ideal)) (x1 : (⟨S50000x128, .f32⟩ : BufTy).Contents (Elt Ideal))
  (x2 x3 : (⟨S1000000, .i32⟩ : BufTy).Contents (Elt Ideal)) (x4 : (⟨S128x256, .f32⟩ : BufTy).Contents (Elt Ideal))
  (x5 : (⟨S128, .f32⟩ : BufTy).Contents (Elt Ideal)) (x6 : (⟨S1x128, .f32⟩ : BufTy).Contents (Elt Ideal))
  (x7 : (⟨S1, .f32⟩ : BufTy).Contents (Elt Ideal))

/-- The user index column at edge e is row[e], when that word is not negative. -/
theorem user_word (e : Fin 1000000) (h0 : 0 ≤ (x2 (ix1 e)).toInt) :
    val_main_v5 (F := Ideal) x2 (ix2 e (0 : Fin 1)) = x2 (ix1 e) := by
  rw [val_main_v5_apply]
  have hi : idx_main_v5 (ix2 e (0 : Fin 1)) = ix1 e := funext fun a => match a with | ⟨0, _⟩ => rfl
  rw [hi, val_main_v4_apply, val_main_v1_apply, val_main_v3_apply, val_main_v0_apply, val_main_c_apply]
  exact wrap_of_nonneg _ _ h0

/-- The movie index column at edge e is col[e], when that word is not negative. -/
theorem movie_word (e : Fin 1000000) (h0 : 0 ≤ (x3 (ix1 e)).toInt) :
    val_main_v12 (F := Ideal) x3 (ix2 e (0 : Fin 1)) = x3 (ix1 e) := by
  rw [val_main_v12_apply]
  have hi : idx_main_v12 (ix2 e (0 : Fin 1)) = ix1 e := funext fun a => match a with | ⟨0, _⟩ => rfl
  rw [hi, val_main_v11_apply, val_main_v8_apply, val_main_v10_apply, val_main_v7_apply, val_main_c_1_apply]
  exact wrap_of_nonneg _ _ h0

/-- The gathered user rows: row e is row row[e] of the user table. -/
theorem user_row (e : Fin 1000000) (j : Fin 128) (h0 : 0 ≤ (x2 (ix1 e)).toInt) (h1 : (x2 (ix1 e)).toInt < 100000) :
    val_main_v6 (F := Ideal) x0 x2 (ix2 e j) = rowAt x0 (x2 (ix1 e)).toNat j := by
  have hw := user_word x2 e h0
  have hlt : (x2 (ix1 e)).toNat < 100000 := toNat_lt_of_range _ _ h0 h1
  unfold val_main_v6
  rw [Cert.LibScatterGather2.gather_apply gather_S100000x128_S1000000x1_S1000000x128_1_0_n_n_0_1_1128 rfl rfl rfl rfl rfl
    x0 (val_main_v5 (F := Ideal) x2) e j (by norm_num) (by rw [hw]; exact hlt)]
  rw [rowAt_of_lt x0 _ hlt]
  exact congrArg x0 (congrArg (fun r => ix2 r j) (Fin.ext (congrArg BitVec.toNat hw)))

/-- The gathered movie rows: row e is row col[e] of the movie table. -/
theorem movie_row (e : Fin 1000000) (j : Fin 128) (h0 : 0 ≤ (x3 (ix1 e)).toInt) (h1 : (x3 (ix1 e)).toInt < 50000) :
    val_main_v13 (F := Ideal) x1 x3 (ix2 e j) = rowAt x1 (x3 (ix1 e)).toNat j := by
  have hw := movie_word x3 e h0
  have hlt : (x3 (ix1 e)).toNat < 50000 := toNat_lt_of_range _ _ h0 h1
  unfold val_main_v13
  rw [Cert.LibScatterGather2.gather_apply gather_S50000x128_S1000000x1_S1000000x128_1_0_n_n_0_1_1128 rfl rfl rfl rfl rfl
    x1 (val_main_v12 (F := Ideal) x3) e j (by norm_num) (by rw [hw]; exact hlt)]
  rw [rowAt_of_lt x1 _ hlt]
  exact congrArg x1 (congrArg (fun r => ix2 r j) (Fin.ext (congrArg BitVec.toNat hw)))

/-- The joined array: row e is the two gathered rows side by side. -/
theorem joined_row (e : Fin 1000000) (q : Fin 256)
    (hr : 0 ≤ (x2 (ix1 e)).toInt ∧ (x2 (ix1 e)).toInt < 100000) (hc : 0 ≤ (x3 (ix1 e)).toInt ∧ (x3 (ix1 e)).toInt < 50000) :
    val_main_v14 (F := Ideal) x0 x1 x2 x3 (ix2 e q)
      = joined (rowAt x0 (x2 (ix1 e)).toNat) (rowAt x1 (x3 (ix1 e)).toNat) q := by
  unfold val_main_v14
  rw [concatenate_cols_apply]
  refine congrArg₂ (fun u v => joined u v q) (funext fun j => ?_) (funext fun j => ?_)
  · exact user_row x0 x2 e j hr.1 hr.2
  · exact movie_row x1 x3 e j hc.1 hc.2

/-- Hidden unit k of edge e. -/
theorem hidden_unit (e : Fin 1000000) (k : Fin 128)
    (hr : 0 ≤ (x2 (ix1 e)).toInt ∧ (x2 (ix1 e)).toInt < 100000) (hc : 0 ≤ (x3 (ix1 e)).toInt ∧ (x3 (ix1 e)).toInt < 50000) :
    val_main_v20 (F := Ideal) x0 x1 x2 x3 x4 x5 (ix2 e k)
      = hiddenUnit (rowAt x0 (x2 (ix1 e)).toNat) (rowAt x1 (x3 (ix1 e)).toNat) (fun k q => x4 (ix2 k q)) (fun k => x5 (ix1 k)) k := by
  rw [val_main_v20_apply, val_main_v19_apply, val_main_v16_apply, val_main_v18_apply, val_main_v17_apply,
    val_main_call0_v0_apply, val_main_call0_cst_apply]
  unfold hiddenUnit
  have hb : idx_main_v17 (idx_main_v18 (ix2 e k)) = ix1 k := funext fun a => match a with | ⟨0, _⟩ => rfl
  rw [hb]
  show max ((∑ q : Fin 256, _) + x5 (ix1 k)) (Ideal.ofBits .f32 0x00000000#32) = _
  rw [Ideal.ofBits_zero_f32]
  refine congrArg (fun s => max (s + x5 (ix1 k)) 0) (Finset.sum_congr rfl fun q _ => ?_)
  have hl : lidx_main_v16 (ix2 e k) q = ix2 e q := funext fun a => match a with | ⟨0, _⟩ => rfl | ⟨1, _⟩ => rfl
  have hrr : ridx_main_v16 (ix2 e k) q = ix2 q k := funext fun a => match a with | ⟨0, _⟩ => rfl | ⟨1, _⟩ => rfl
  rw [hl, hrr, joined_row x0 x1 x2 x3 e q hr hc, val_main_v15_apply]
  have ht : idx_main_v15 (ix2 q k) = ix2 k q := funext fun a => match a with | ⟨0, _⟩ => rfl | ⟨1, _⟩ => rfl
  rw [ht]

/-- THE REFERENCE'S RESULT is the array of edge scores, when every index word names a row of its table. -/
theorem result_eq (hrow : ∀ e : Fin 1000000, 0 ≤ (x2 (ix1 e)).toInt ∧ (x2 (ix1 e)).toInt < 100000)
    (hcol : ∀ e : Fin 1000000, 0 ≤ (x3 (ix1 e)).toInt ∧ (x3 (ix1 e)).toInt < 50000) :
    val_main_v26 (F := Ideal) x0 x1 x2 x3 x4 x5 x6 x7 = edgeScores x0 x1 x2 x3 x4 x5 x6 x7 := by
  funext i
  obtain ⟨e, rfl⟩ : ∃ e : Fin 1000000, i = ix1 e := ⟨i 0, eq_ix1 i⟩
  rw [val_main_v26_apply, val_main_v25_apply, val_main_v22_apply, val_main_v24_apply, val_main_v23_apply]
  unfold edgeScores score
  have hb : idx_main_v23 (idx_main_v24 (idx_main_v26 (ix1 e))) = ix1 0 := funext fun a => match a with | ⟨0, _⟩ => rfl
  rw [hb]
  show (∑ k : Fin 128, _) + x7 (ix1 0) = _
  refine congrArg (fun s => s + x7 (ix1 0)) (Finset.sum_congr rfl fun k _ => ?_)
  have hl : lidx_main_v22 (idx_main_v26 (ix1 e)) k = ix2 e k := funext fun a => match a with
    | ⟨0, _⟩ => Fin.ext (Nat.div_one _) | ⟨1, _⟩ => rfl
  have hrr : ridx_main_v22 (idx_main_v26 (ix1 e)) k = ix2 k (0 : Fin 1) := funext fun a => match a with
    | ⟨0, _⟩ => rfl | ⟨1, _⟩ => rfl
  rw [hl, hrr, hidden_unit x0 x1 x2 x3 x4 x5 e k (hrow e) (hcol e), val_main_v21_apply]
  have ht : idx_main_v21 (ix2 k (0 : Fin 1)) = ix2 (0 : Fin 1) k := funext fun a => match a with | ⟨0, _⟩ => rfl | ⟨1, _⟩ => rfl
  rw [ht]

end Cert.RefEdges

end
-- ==== Proof.TileScore.lean ====
/-
  One tile of the kernel: the 8192 scores the body stores, as a function of its six loaded blocks.

  The body lays the user block and the movie block (8192 rows of 128 entries each) side by side, multiplies the
  8192 × 256 result by the 256 × 128 weight block into a zero accumulator, adds the bias along every row, takes the
  larger of that and zero, multiplies by the second layer's weights along every row, sums each row's 128 lanes and adds
  the last bias's one entry. Read at row p this is the score of EdgeScore.lean of row p of the two blocks: the block
  product at (p, k) is the sum over the 256 joined columns, the lane sum the sum over the 128 hidden units, and a
  change of float format is the identity on the extended reals.
-/
import proofs.«425532_j68865505624265_4_alg».proof.Proof.Gen.KernelIdeal.Skeleton
import proofs.«425532_j68865505624265_4_alg».proof.Proof.EdgeScore
import proofs.«425532_j68865505624265_4_alg».proof.Proof.JoinedRows
import Idealize.ShloMosaic.Lib.ValueIdx
import Idealize.ShloMosaic.Lib.ValueLayout
import Idealize.ShloMosaic.Lib.Pipeline.Value
import Idealize.ShloMosaic.PureOps.Ideal.Laws

noncomputable section

namespace Cert.TileScore

open Cert.KernelIdeal Cert.KernelIdeal.Gen Idealize.ShloMosaic Idealize.ShloMosaic.ValueIdx Cert.EdgeScore

/-! ## The block product at an entry -/

theorem lhs_axis0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_axis1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem rhs_axis0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem rhs_axis1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- The product of an 8192 × 256 block with a 256 × 128 one, into a zero accumulator, at entry (p, k): the sum over the
    256 shared positions of the products. -/
theorem product_apply (L : FVec Ideal S8192x256 .bf16) (R : FVec Ideal S256x128 .bf16) (p : Fin 8192) (k : Fin 128) :
    matmul dot_S8192x256_S256x128_S8192x128_1_0_0_1_n_n none L R (constant (F := Ideal) S8192x128 .f32 0x00000000#32) (ix2 p k)
      = ∑ q : Fin 256, L (ix2 p q) * R (ix2 q k) := by
  simp only [matmul]
  rw [Ideal.matmul_constant_zero_apply, ← Equiv.sum_comp (contrEquiv1 dot_S8192x256_S256x128_S8192x128_1_0_0_1_n_n 256 rfl rfl).symm]
  refine Finset.sum_congr rfl fun q _ => ?_
  have hk := contrEquiv1_symm_val dot_S8192x256_S256x128_S8192x128_1_0_0_1_n_n 256 rfl rfl q
  have el : dot_S8192x256_S256x128_S8192x128_1_0_0_1_n_n.lhsIdx (ix2 p k) ((contrEquiv1 dot_S8192x256_S256x128_S8192x128_1_0_0_1_n_n 256 rfl rfl).symm q) = ix2 p q := funext fun a => Fin.ext (by
    match a with
    | ⟨0, _⟩ => exact lhs_axis0 _ _
    | ⟨1, _⟩ => exact (lhs_axis1 _ _).trans hk)
  have er : dot_S8192x256_S256x128_S8192x128_1_0_0_1_n_n.rhsIdx (ix2 p k) ((contrEquiv1 dot_S8192x256_S256x128_S8192x128_1_0_0_1_n_n 256 rfl rfl).symm q) = ix2 q k := funext fun a => Fin.ext (by
    match a with
    | ⟨0, _⟩ => exact (rhs_axis0 _ _).trans hk
    | ⟨1, _⟩ => exact rhs_axis1 _ _)
  rw [el, er]

/-! ## The lane sum, and a vector laid along every row -/

/-- The sum along the 128 lanes of row p. -/
theorem lane_sum_apply (V : FVec Ideal S8192x128 .f32) (p : Fin 8192) :
    multiReduction .add [1] S8192 V 0x00000000#32 reduces_S8192x128_S8192 (.inl rfl) rfl (ix1 p)
      = ∑ k : Fin 128, V (ix2 p k) := by
  refine (Ideal.multiReduction_add_single V 0x00000000#32 reduces_S8192x128_S8192 _ _ (ix1 p)).trans ?_
  exact Finset.sum_congr rfl fun k _ => congrArg V (funext fun a => match a with | ⟨0, _⟩ => Fin.ext rfl | ⟨1, _⟩ => Fin.ext rfl)

/-- A vector of 128 entries laid along every one of the 8192 rows reads, at (p, k), its entry k. -/
theorem along_rows_apply (x : FVec Ideal S128 .f32) (p : Fin 8192) (k : Fin 128) :
    broadcastTo S8192x128 (shapeCast S1x128 x shapeCasts_S128_S1x128) broadcasts_S1x128_S8192x128 (ix2 p k) = x (ix1 k) :=
  (broadcastTo_1b_ab_apply _ broadcasts_S1x128_S8192x128 p k).trans (shapeCast_a_1a_apply x shapeCasts_S128_S1x128 0 k)

/-! ## The stored tile at a row -/

/-- The tile the body stores, at row p: the score of row p of the user block and row p of the movie block under the
    weights as the blocks hold them (the first layer's weights transposed: the block's entry (q, k) is weight (k, q)). -/
theorem payload_apply (x0 x1 : FVec Ideal S8192x128 .bf16) (x2 : FVec Ideal S256x128 .bf16) (x3 x4 : FVec Ideal S128 .f32)
    (x5 : FVec Ideal S1 .f32) (p : Fin 8192) :
    k0_pay1 (F := Ideal) x0 x1 x2 x3 x4 x5 (ix1 p)
      = score (fun j => x0 (ix2 p j)) (fun j => x1 (ix2 p j)) (fun k q => x2 (ix2 q k)) (fun k => x3 (ix1 k))
          (fun k => x4 (ix1 k)) (x5 (ix1 0)) := by
  unfold k0_pay1 score
  simp only [shapeCast_self]
  refine (addf_apply _ _ _).trans (congrArg₂ (· + ·) ?_ ?_)
  · refine (lane_sum_apply _ p).trans (Finset.sum_congr rfl fun k _ => ?_)
    refine (mulf_apply _ _ _).trans (congrArg₂ (· * ·) ?_ (along_rows_apply x4 p k))
    refine (maximumf_apply _ _ _).trans ?_
    unfold hiddenUnit
    refine congrArg₂ max ?_ Ideal.ofBits_zero_f32
    refine (addf_apply _ _ _).trans (congrArg₂ (· + ·) ?_ (along_rows_apply x3 p k))
    refine (product_apply _ x2 p k).trans (Finset.sum_congr rfl fun q _ => congrArg (· * x2 (ix2 q k)) ?_)
    refine (concatenate_cols_apply _ _ _ p q).trans ?_
    exact congrArg₂ (fun u v => joined u v q) (funext fun j => congrFun (shapeCast_self x0 _) _)
      (funext fun j => congrFun (shapeCast_self x1 _) _)
  · exact congrArg x5 (funext fun a => match a with | ⟨0, _⟩ => Fin.ext rfl)

end Cert.TileScore

end
-- ==== Proof.Tiles.lean ====
/-
  From the tiles to the whole array of padded scores.

  The launch runs the body at 124 grid points; point t reads rows 8192·t … 8192·t + 8191 of the two staged row arrays and
  the whole of the four weight arrays, and writes entries 8192·t … 8192·t + 8191 of the result. So what point t writes
  back is the restriction, to its range of entries, of ONE array: entry i holds the score of row i of the two staged
  row arrays under the staged weights. The 124 ranges cover all 1015808 entries (entry i belongs to point i / 8192),
  hence after the run the result array is that array.
-/
import proofs.«425532_j68865505624265_4_alg».proof.Defs
import proofs.«425532_j68865505624265_4_alg».proof.Proof.Gen.KernelIdeal.Frame
import proofs.«425532_j68865505624265_4_alg».proof.Proof.EdgeScore
import proofs.«425532_j68865505624265_4_alg».proof.Proof.TileScore
import Idealize.ShloMosaic.Lib.Pipeline.Value
import Idealize.ShloMosaic.Lib.ValueIdx
import Idealize.ShloMosaic.Lib.Tactic

noncomputable section

namespace Cert.Tiles

open Cert.KernelIdeal Cert.KernelIdeal.Gen Idealize.ShloMosaic Idealize.ShloMosaic.TcCoe Idealize.ShloMosaic.ValueIdx
open Idealize.SL.Sem Cert.EdgeScore
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-! ## The six operand arrays as the launch finds them, and the blocks a point reads -/

abbrev userArr (c : Dev nD) : FVec Ideal S1015808x128 .bf16 := V m c main_v3
abbrev movieArr (c : Dev nD) : FVec Ideal S1015808x128 .bf16 := V m c main_v5
abbrev w1Arr (c : Dev nD) : FVec Ideal S256x128 .bf16 := V m c main_v7
abbrev b1Arr (c : Dev nD) : FVec Ideal S128 .f32 := V m c main_arg5
abbrev w2Arr (c : Dev nD) : FVec Ideal S128 .f32 := V m c main_v8
abbrev b2Arr (c : Dev nD) : FVec Ideal S1 .f32 := V m c main_arg7

abbrev userBlk (c : Dev nD) (t : Fin cfg0.N) : FVec Ideal S8192x128 .bf16 := iblk m c 0 t
abbrev movieBlk (c : Dev nD) (t : Fin cfg0.N) : FVec Ideal S8192x128 .bf16 := iblk m c 1 t
abbrev w1Blk (c : Dev nD) (t : Fin cfg0.N) : FVec Ideal S256x128 .bf16 := iblk m c 2 t
abbrev b1Blk (c : Dev nD) (t : Fin cfg0.N) : FVec Ideal S128 .f32 := iblk m c 3 t
abbrev w2Blk (c : Dev nD) (t : Fin cfg0.N) : FVec Ideal S128 .f32 := iblk m c 4 t
abbrev b2Blk (c : Dev nD) (t : Fin cfg0.N) : FVec Ideal S1 .f32 := iblk m c 5 t

/-- The scores of all 1015808 padded rows: entry i is the score of row i of the two row arrays. -/
def scored (zu zm : FVec Ideal S1015808x128 .bf16) (w1 : FVec Ideal S256x128 .bf16) (b1 w2 : FVec Ideal S128 .f32)
    (b2 : FVec Ideal S1 .f32) : FVec Ideal S1015808 .f32 :=
  fun i => score (fun j => zu (ix2 ⟨(i 0).val, (i 0).isLt⟩ j)) (fun j => zm (ix2 ⟨(i 0).val, (i 0).isLt⟩ j))
    (fun k q => w1 (ix2 q k)) (fun k => b1 (ix1 k)) (fun k => w2 (ix1 k)) (b2 (ix1 0))

/-- The printed index maps over the grid: point t takes block t of the row arrays and of the result, block 0 of the rest. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 1) = t.val :=
  (by decide +kernel : ∀ t : Fin grid0.N, _)

/-- A block is read through its window's view; the view hands the array's element over along the equation of the
    array's element type with the window's, which here is an equation of a type with itself. -/
theorem cast_blk0 (t : Fin cfg0.N) (x : Elt Ideal ((cfg0.win 0).blk t).view.ty.elt) (y : Ideal .bf16) (h : x = y) :
    cast (congrArg (Elt Ideal) ((cfg0.win 0).blk t).view.elt_eq) x = y := h
theorem cast_blk1 (t : Fin cfg0.N) (x : Elt Ideal ((cfg0.win 1).blk t).view.ty.elt) (y : Ideal .bf16) (h : x = y) :
    cast (congrArg (Elt Ideal) ((cfg0.win 1).blk t).view.elt_eq) x = y := h
theorem cast_blk2 (t : Fin cfg0.N) (x : Elt Ideal ((cfg0.win 2).blk t).view.ty.elt) (y : Ideal .bf16) (h : x = y) :
    cast (congrArg (Elt Ideal) ((cfg0.win 2).blk t).view.elt_eq) x = y := h
theorem cast_blk3 (t : Fin cfg0.N) (x : Elt Ideal ((cfg0.win 3).blk t).view.ty.elt) (y : Ideal .f32) (h : x = y) :
    cast (congrArg (Elt Ideal) ((cfg0.win 3).blk t).view.elt_eq) x = y := h
theorem cast_blk4 (t : Fin cfg0.N) (x : Elt Ideal ((cfg0.win 4).blk t).view.ty.elt) (y : Ideal .f32) (h : x = y) :
    cast (congrArg (Elt Ideal) ((cfg0.win 4).blk t).view.elt_eq) x = y := h
theorem cast_blk5 (t : Fin cfg0.N) (x : Elt Ideal ((cfg0.win 5).blk t).view.ty.elt) (y : Ideal .f32) (h : x = y) :
    cast (congrArg (Elt Ideal) ((cfg0.win 5).blk t).view.elt_eq) x = y := h
theorem cast_blk6 (t : Fin cfg0.N) (x : Elt Ideal ((cfg0.win 6).blk t).view.ty.elt) (y : Ideal .f32) (h : x = y) :
    cast (congrArg (Elt Ideal) ((cfg0.win 6).blk t).view.elt_eq) x = y := h

/-- Where entry (p, j) of point t's user block sits in the user array: row 8192·t + p. -/
theorem user_emb (t : Fin cfg0.N) (p : Fin 8192) (j : Fin 128) (hlt : t.val * 8192 + p.val < 1015808) :
    ((cfg0.win 0).blk t).view.emb (ix2 p j) = ix2 ⟨t.val * 8192 + p.val, hlt⟩ j := by
  obtain ⟨e00, e01, e10, e11, e20, e21, e30, e40, e50, e60⟩ := idx_facts t
  funext a
  apply Fin.ext
  match a with
  | ⟨0, _⟩ => show win0_0.index t (0 : Fin 2) * 8192 + 1 * p.val = t.val * 8192 + p.val; rw [e00]; omega
  | ⟨1, _⟩ => show win0_0.index t (1 : Fin 2) * 128 + 1 * j.val = j.val; rw [e01]; omega

/-- Row p of point t's user block is row 8192·t + p of the user array. -/
theorem user_block (c : Dev nD) (t : Fin cfg0.N) (p : Fin 8192) (j : Fin 128) (hlt : t.val * 8192 + p.val < 1015808) :
    userBlk m c t (ix2 p j) = userArr m c (ix2 ⟨t.val * 8192 + p.val, hlt⟩ j) := by
  unfold userBlk iblk
  rw [View.read_apply, user_emb t p j hlt]
  refine cast_blk0 t _ _ ?_
  unfold userArr
  generalize V m c = X
  rfl

/-- Where entry (p, j) of point t's movie block sits in the movie array: row 8192·t + p. -/
theorem movie_emb (t : Fin cfg0.N) (p : Fin 8192) (j : Fin 128) (hlt : t.val * 8192 + p.val < 1015808) :
    ((cfg0.win 1).blk t).view.emb (ix2 p j) = ix2 ⟨t.val * 8192 + p.val, hlt⟩ j := by
  obtain ⟨e00, e01, e10, e11, e20, e21, e30, e40, e50, e60⟩ := idx_facts t
  funext a
  apply Fin.ext
  match a with
  | ⟨0, _⟩ => show win0_1.index t (0 : Fin 2) * 8192 + 1 * p.val = t.val * 8192 + p.val; rw [e10]; omega
  | ⟨1, _⟩ => show win0_1.index t (1 : Fin 2) * 128 + 1 * j.val = j.val; rw [e11]; omega

/-- Row p of point t's movie block is row 8192·t + p of the movie array. -/
theorem movie_block (c : Dev nD) (t : Fin cfg0.N) (p : Fin 8192) (j : Fin 128) (hlt : t.val * 8192 + p.val < 1015808) :
    movieBlk m c t (ix2 p j) = movieArr m c (ix2 ⟨t.val * 8192 + p.val, hlt⟩ j) := by
  unfold movieBlk iblk
  rw [View.read_apply, movie_emb t p j hlt]
  refine cast_blk1 t _ _ ?_
  unfold movieArr
  generalize V m c = X
  rfl

/-- Every point's weight block sits at the start of the weight array. -/
theorem w1_emb (t : Fin cfg0.N) (q : Fin 256) (k : Fin 128) :
    ((cfg0.win 2).blk t).view.emb (ix2 q k) = ix2 q k := by
  obtain ⟨e00, e01, e10, e11, e20, e21, e30, e40, e50, e60⟩ := idx_facts t
  funext a
  apply Fin.ext
  match a with
  | ⟨0, _⟩ => show win0_2.index t (0 : Fin 2) * 256 + 1 * q.val = q.val; rw [e20]; omega
  | ⟨1, _⟩ => show win0_2.index t (1 : Fin 2) * 128 + 1 * k.val = k.val; rw [e21]; omega

/-- Every point's weight block is the whole weight array. -/
theorem w1_block (c : Dev nD) (t : Fin cfg0.N) (q : Fin 256) (k : Fin 128) :
    w1Blk m c t (ix2 q k) = w1Arr m c (ix2 q k) := by
  unfold w1Blk iblk
  rw [View.read_apply, w1_emb t q k]
  refine cast_blk2 t _ _ ?_
  unfold w1Arr
  generalize V m c = X
  rfl

/-- Every point's first bias block sits at the start of the bias vector. -/
theorem b1_emb (t : Fin cfg0.N) (k : Fin 128) :
    ((cfg0.win 3).blk t).view.emb (ix1 k) = ix1 k := by
  obtain ⟨e00, e01, e10, e11, e20, e21, e30, e40, e50, e60⟩ := idx_facts t
  funext a
  apply Fin.ext
  match a with
  | ⟨0, _⟩ => show win0_3.index t (0 : Fin 1) * 128 + 1 * k.val = k.val; rw [e30]; omega

/-- Every point's first bias block is the whole bias vector. -/
theorem b1_block (c : Dev nD) (t : Fin cfg0.N) (k : Fin 128) :
    b1Blk m c t (ix1 k) = b1Arr m c (ix1 k) := by
  unfold b1Blk iblk
  rw [View.read_apply, b1_emb t k]
  refine cast_blk3 t _ _ ?_
  unfold b1Arr
  generalize V m c = X
  rfl

/-- Every point's second-layer block sits at the start of the second-layer vector. -/
theorem w2_emb (t : Fin cfg0.N) (k : Fin 128) :
    ((cfg0.win 4).blk t).view.emb (ix1 k) = ix1 k := by
  obtain ⟨e00, e01, e10, e11, e20, e21, e30, e40, e50, e60⟩ := idx_facts t
  funext a
  apply Fin.ext
  match a with
  | ⟨0, _⟩ => show win0_4.index t (0 : Fin 1) * 128 + 1 * k.val = k.val; rw [e40]; omega

/-- Every point's second-layer block is the whole second-layer vector. -/
theorem w2_block (c : Dev nD) (t : Fin cfg0.N) (k : Fin 128) :
    w2Blk m c t (ix1 k) = w2Arr m c (ix1 k) := by
  unfold w2Blk iblk
  rw [View.read_apply, w2_emb t k]
  refine cast_blk4 t _ _ ?_
  unfold w2Arr
  generalize V m c = X
  rfl

/-- Every point's last-bias block is the one entry of the last bias. -/
theorem b2_emb (t : Fin cfg0.N) : ((cfg0.win 5).blk t).view.emb (ix1 (0 : Fin 1)) = ix1 (0 : Fin 1) := by
  obtain ⟨e00, e01, e10, e11, e20, e21, e30, e40, e50, e60⟩ := idx_facts t
  funext a
  apply Fin.ext
  match a with
  | ⟨0, _⟩ => show win0_5.index t (0 : Fin 1) * 1 + 1 * 0 = 0; rw [e50]

theorem b2_block (c : Dev nD) (t : Fin cfg0.N) : b2Blk m c t (ix1 0) = b2Arr m c (ix1 0) := by
  unfold b2Blk iblk
  rw [View.read_apply, b2_emb t]
  refine cast_blk5 t _ _ ?_
  unfold b2Arr
  generalize V m c = X
  rfl

/-! ## What a point writes back, and the array after the run -/

/-- Entry p of the tile point t stores is entry 8192·t + p of the array of scores. -/
theorem tile_apply (c : Dev nD) (t : Fin cfg0.N) (p : Fin 8192) (hlt : t.val * 8192 + p.val < 1015808) :
    k0_pay1 (F := Ideal) (userBlk m c t) (movieBlk m c t) (w1Blk m c t) (b1Blk m c t) (w2Blk m c t) (b2Blk m c t) (ix1 p)
      = scored (userArr m c) (movieArr m c) (w1Arr m c) (b1Arr m c) (w2Arr m c) (b2Arr m c)
          (ix1 ⟨t.val * 8192 + p.val, hlt⟩) := by
  refine (Cert.TileScore.payload_apply _ _ _ _ _ _ p).trans ?_
  unfold scored
  have h1 : (fun j => userBlk m c t (ix2 p j)) = fun j => userArr m c (ix2 ⟨t.val * 8192 + p.val, hlt⟩ j) :=
    funext fun j => user_block m c t p j hlt
  have h2 : (fun j => movieBlk m c t (ix2 p j)) = fun j => movieArr m c (ix2 ⟨t.val * 8192 + p.val, hlt⟩ j) :=
    funext fun j => movie_block m c t p j hlt
  have h3 : (fun (k : Fin 128) (q : Fin 256) => w1Blk m c t (ix2 q k)) = fun k q => w1Arr m c (ix2 q k) :=
    funext fun k => funext fun q => w1_block m c t q k
  have h4 : (fun k => b1Blk m c t (ix1 k)) = fun k => b1Arr m c (ix1 k) := funext fun k => b1_block m c t k
  have h5 : (fun k => w2Blk m c t (ix1 k)) = fun k => w2Arr m c (ix1 k) := funext fun k => w2_block m c t k
  rw [h1, h2, h3, h4, h5, b2_block m c t]

/-- WHAT POINT t WRITES BACK is its range of entries of the array of scores. -/
theorem flushed_eq (c : Dev nD) (t : Fin cfg0.N) :
    (dats m 0 c).flushed 6 t = ((cfg0.win 6).blk t).view.read (Elt Ideal)
      (scored (userArr m c) (movieArr m c) (w1Arr m c) (b1Arr m c) (w2Arr m c) (b2Arr m c)) := by
  show (cfg0.win 6).cut (grid0.coords t) ((dats m 0 c).after 6 t) = _
  rw [after0_6]
  unfold out0_6
  rw [View.canon_unit_zero hz1]
  simp only [View.ld_unit_zero (S := S8192x128) hz2, View.ld_unit_zero (S := S256x128) hz2,
    View.ld_unit_zero (S := S128) hz1, View.ld_unit_zero (S := S1) hz1]
  funext y
  rw [View.read_apply]
  refine (cast_blk6 t _ _ ?_).symm
  have hy : (y 0).val < 8192 := (y 0).isLt
  have hN : t.val < 124 := by have h := t.isLt; have e : cfg0.N = 124 := N_0; omega
  have hlt : t.val * 8192 + (y 0).val < 1015808 := by omega
  obtain ⟨-, -, -, -, -, -, -, -, -, e6⟩ := idx_facts t
  have eemb : ((cfg0.win 6).blk t).view.emb y = ix1 ⟨t.val * 8192 + (y 0).val, hlt⟩ := funext fun a => Fin.ext (by
    match a with
    | ⟨0, _⟩ => show win0_6.index t (0 : Fin 1) * 8192 + 1 * (y 0).val = t.val * 8192 + (y 0).val; rw [e6]; omega)
  rw [eemb]
  have ey : y = ix1 (⟨(y 0).val, hy⟩ : Fin 8192) := funext fun a => match a with | ⟨0, _⟩ => rfl
  exact ((congrArg (k0_pay1 (F := Ideal) (userBlk m c t) (movieBlk m c t) (w1Blk m c t) (b1Blk m c t) (w2Blk m c t) (b2Blk m c t)) ey).trans
    (tile_apply m c t ⟨(y 0).val, hy⟩ hlt)).symm

/-- An index of the result array is in point t's block iff it lies in the block's range of entries. -/
theorem mem_blk (t : Fin cfg0.N) (i : S1015808.Idx) :
    i ∈ ((cfg0.win 6).blk t).view.set ↔ ∀ a : Fin 1, win0_6.index t a * S8192.size a ≤ (i a).val
      ∧ (i a).val < win0_6.index t a * S8192.size a + S8192.size a := by
  show i ∈ ((View.whole main_v9).slice (win0_6.rect t)).set ↔ _
  rw [View.set_slice_whole, Rect.mem_set_unit]
  exact Iff.rfl

/-- Every entry lies in the block of the point numbered by its quotient by 8192. -/
theorem cover (i : S1015808.Idx) :
    ∃ t : Fin cfg0.N, (cfg0.win 6).flush t = true ∧ i ∈ ((cfg0.win 6).blk t).view.set := by
  have hi : (i 0).val < 1015808 := (i 0).isLt
  have hN : cfg0.N = 124 := N_0
  refine ⟨⟨(i 0).val / 8192, by rw [hN]; omega⟩, flush0_6 _, ?_⟩
  rw [mem_blk]
  intro a
  obtain ⟨-, -, -, -, -, -, -, -, -, e6⟩ := idx_facts ⟨(i 0).val / 8192, by rw [hN]; omega⟩
  match a with
  | ⟨0, _⟩ =>
    show win0_6.index _ (0 : Fin 1) * 8192 ≤ (i 0).val ∧ (i 0).val < win0_6.index _ (0 : Fin 1) * 8192 + 8192
    rw [e6]
    show (i 0).val / 8192 * 8192 ≤ (i 0).val ∧ (i 0).val < (i 0).val / 8192 * 8192 + 8192
    omega

/-- THE RESULT ARRAY AFTER THE RUN: the scores of all the padded rows. -/
theorem final (c : Dev nD) : (dats m 0 c).arrAt 6 cfg0.N
    = scored (userArr m c) (movieArr m c) (w1Arr m c) (b1Arr m c) (w2Arr m c) (b2Arr m c) :=
  (dats m 0 c).arrAt_eq_of_cover 6 _ (fun t _ => flushed_eq m c t) cover

end Cert.Tiles

end
-- ==== Proof.Staged.lean ====
/-
  What the launch finds in its operand arrays, read at an entry.

  Before the launch the host pads each index array with zero words to 1015808 words, takes the table's rows at the
  padded words (a negative word moved up by the table's height; where the word then lies outside the table the row is
  filled with a fixed pattern instead), changes the float format, transposes the first layer's weights and flattens the
  second layer's one row. At a row below 1000000 whose word names a row of the table, none of the guards bind: the
  padded word is the original word, it is not negative, the row's in-range bit is set, and the gather reads exactly
  the table's row at the word. A change of float format is the identity on the extended reals.
-/
import proofs.«425532_j68865505624265_4_alg».proof.Defs
import proofs.«425532_j68865505624265_4_alg».proof.Proof.Gen.KernelIdeal.Frame
import proofs.«425532_j68865505624265_4_alg».proof.Proof.EdgeScore
import proofs.«425532_j68865505624265_4_alg».proof.Proof.IndexWords
import proofs.«425532_j68865505624265_4_alg».proof.Proof.LibScatterGather2
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Reduce

noncomputable section

namespace Cert.Staged

open Cert.KernelIdeal Cert.KernelIdeal.Gen Idealize.ShloMosaic Idealize.ShloMosaic.TcCoe Idealize.ShloMosaic.ValueIdx
open Idealize.ShloMosaic.StableHlo Idealize.SL.Sem Cert.EdgeScore

/-! ## The host operations before the launch, as functions -/

/-- An index array of 1000000 words padded with zero words to 1015808. -/
def padded (x : IVec S1000000 32) : IVec S1015808 32 :=
  pad S1015808 ![0] ![15808] ![0] x (id (constantI S_ 32 0#32)) pads_S1000000_S1015808_0158080 h_S_

/-- The padded words as a column, a negative word moved up by the table's height n. -/
def wrappedCol (n : BitVec 32) (P : IVec S1015808 32) : IVec S1015808x1 32 :=
  broadcastInDim S1015808x1 ![0] bcast_S1015808_S1015808x1_0
    (select (cmpi .slt P (broadcastInDim S1015808 ![] bcast_S_S1015808 (constantI S_ 32 0#32)))
      (addi P (broadcastInDim S1015808 ![] bcast_S_S1015808 (constantI S_ 32 n))) P)

/-- One bit per row: the row's word lies in [0, top]. -/
def rowOk (top : BitVec 32) (I : IVec S1015808x1 32) : IVec S1015808 1 :=
  Host.reduce IntOp.andi
    (andi (cmpi .sge I (broadcastInDim S1015808x1 ![] bcast_S_S1015808x1 (constantI S_ 32 0#32)))
      (cmpi .sle I (broadcastInDim S1015808x1 ![0, 1] bcast_S1x1_S1015808x1_0_1
        (broadcastInDim S1x1 ![1] bcast_S1_S1x1_1 (constantI S1 32 top)))))
    (constantI S_ 1 1#1) reducesTo_S1015808x1_S1015808_d1 h_S_

/-- The user rows taken at the words: the gathered row where the row's bit is set, the fill pattern elsewhere. -/
def takenUser (tbl : FVec Ideal S100000x128 .f32) (P : IVec S1015808 32) : FVec Ideal S1015808x128 .f32 :=
  select (broadcastInDim S1015808x128 ![0] bcast_S1015808_S1015808x128_0 (rowOk 99999#32 (wrappedCol 100000#32 P)))
    (Host.gather gather_S100000x128_S1015808x1_S1015808x128_1_0_n_n_0_1_1128 tbl (wrappedCol 100000#32 P))
    (broadcastInDim S1015808x128 ![] bcast_S_S1015808x128 (constant (F := Ideal) S_ .f32 0x7FC00000#32))

/-- The movie rows taken at the words, likewise. -/
def takenMovie (tbl : FVec Ideal S50000x128 .f32) (P : IVec S1015808 32) : FVec Ideal S1015808x128 .f32 :=
  select (broadcastInDim S1015808x128 ![0] bcast_S1015808_S1015808x128_0 (rowOk 49999#32 (wrappedCol 50000#32 P)))
    (Host.gather gather_S50000x128_S1015808x1_S1015808x128_1_0_n_n_0_1_1128 tbl (wrappedCol 50000#32 P))
    (broadcastInDim S1015808x128 ![] bcast_S_S1015808x128 (constant (F := Ideal) S_ .f32 0x7FC00000#32))

/-! ## The taken arrays read at a row -/

/-- A padded index array at a position below 1000000 holds the original word. -/
theorem padded_apply (x : IVec S1000000 32) (e : Fin 1015808) (he : e.val < 1000000) :
    padded x (ix1 e) = x (ix1 ⟨e.val, he⟩) := by
  unfold padded
  exact pad_apply_of_inside ![0] ![15808] ![0] x _ pads_S1000000_S1015808_0158080 h_S_ (ix1 e) (ix1 ⟨e.val, he⟩)
    (fun a => match a with | ⟨0, _⟩ => by show e.val = 0 + e.val * (0 + 1); omega)

/-- The wrapped column at row e is the row's word itself, when that word is not negative. -/
theorem wrappedCol_apply (n : BitVec 32) (P : IVec S1015808 32) (e : Fin 1015808) (h0 : 0 ≤ (P (ix1 e)).toInt) :
    wrappedCol n P (ix2 e (0 : Fin 1)) = P (ix1 e) := by
  unfold wrappedCol
  refine (broadcastInDim_apply ![0] bcast_S1015808_S1015808x1_0 _ (ix2 e (0 : Fin 1)) (ix1 e)
    (fun a => match a with
      | ⟨0, _⟩ => by show e.val = if (1015808 : Nat) = 1 then 0 else e.val; rw [if_neg (by decide)])).trans ?_
  exact wrap_of_nonneg (P (ix1 e)) n h0

theorem reducesCol : S1015808x1.Reduces [1] S1015808 := by decide

/-- The "and" over a one-element set, from 1, is the element. -/
theorem fold_andi_one (f : Fin 1 → BitVec 1) :
    (Finset.univ : Finset (Fin 1)).fold IntOp.andi 1#1 f = IntOp.andi (f 0) 1#1 := by
  rw [Finset.univ_unique, Finset.fold_singleton]
  rfl

/-- A row's bit is set when its word lies in [0, top]: the "all" runs over the row's one entry. -/
theorem rowOk_apply (top : BitVec 32) (I : IVec S1015808x1 32) (e : Fin 1015808)
    (h0 : 0 ≤ (I (ix2 e (0 : Fin 1))).toInt) (h1 : (I (ix2 e (0 : Fin 1))).toInt ≤ top.toInt) :
    rowOk top I (ix1 e) = 1#1 := by
  unfold rowOk
  refine (Host.reduce_eq_fold_single IntOp.andi _ _ reducesTo_S1015808x1_S1015808_d1 reducesCol h_S_ (ix1 e)).trans ?_
  refine (fold_andi_one _).trans ?_
  have hl : reducesCol.lift (ix1 e) (0 : Fin 1) = ix2 e (0 : Fin 1) :=
    funext fun a => match a with | ⟨0, _⟩ => Fin.ext rfl | ⟨1, _⟩ => Fin.ext rfl
  show IntOp.andi (IntOp.andi (IntOp.cmpi .sge (I (reducesCol.lift (ix1 e) (0 : Fin 1))) 0#32)
    (IntOp.cmpi .sle (I (reducesCol.lift (ix1 e) (0 : Fin 1))) top)) 1#1 = 1#1
  rw [hl]
  exact in_range_bits _ top h0 h1

/-- The taken user rows at row e: the user table's row at the row's word, when the word names a row. -/
theorem takenUser_apply (tbl : FVec Ideal S100000x128 .f32) (P : IVec S1015808 32) (e : Fin 1015808) (j : Fin 128)
    (h0 : 0 ≤ (P (ix1 e)).toInt) (h1 : (P (ix1 e)).toInt < 100000) :
    takenUser tbl P (ix2 e j) = rowAt tbl (P (ix1 e)).toNat j := by
  have hw := wrappedCol_apply 100000#32 P e h0
  have hlt : (P (ix1 e)).toNat < 100000 := toNat_lt_of_range _ _ h0 h1
  have htop : (99999#32 : BitVec 32).toInt = 99999 := by decide
  have hbit : broadcastInDim S1015808x128 ![0] bcast_S1015808_S1015808x128_0
      (rowOk 99999#32 (wrappedCol 100000#32 P)) (ix2 e j) = 1#1 := by
    refine (broadcastInDim_apply ![0] bcast_S1015808_S1015808x128_0 _ (ix2 e j) (ix1 e)
      (fun a => match a with
        | ⟨0, _⟩ => by show e.val = if (1015808 : Nat) = 1 then 0 else e.val; rw [if_neg (by decide)])).trans ?_
    exact rowOk_apply 99999#32 _ e (by rw [hw]; exact h0) (by rw [hw, htop]; omega)
  unfold takenUser
  refine (select_apply _ _ _ _).trans ?_
  rw [hbit, select_one,
    Cert.LibScatterGather2.gather_apply gather_S100000x128_S1015808x1_S1015808x128_1_0_n_n_0_1_1128 rfl rfl rfl rfl rfl
      tbl (wrappedCol 100000#32 P) e j (by norm_num) (by rw [hw]; exact hlt),
    rowAt_of_lt tbl _ hlt]
  exact congrArg tbl (congrArg (fun r => ix2 r j) (Fin.ext (congrArg BitVec.toNat hw)))

/-- The taken movie rows at row e: the movie table's row at the row's word, when the word names a row. -/
theorem takenMovie_apply (tbl : FVec Ideal S50000x128 .f32) (P : IVec S1015808 32) (e : Fin 1015808) (j : Fin 128)
    (h0 : 0 ≤ (P (ix1 e)).toInt) (h1 : (P (ix1 e)).toInt < 50000) :
    takenMovie tbl P (ix2 e j) = rowAt tbl (P (ix1 e)).toNat j := by
  have hw := wrappedCol_apply 50000#32 P e h0
  have hlt : (P (ix1 e)).toNat < 50000 := toNat_lt_of_range _ _ h0 h1
  have htop : (49999#32 : BitVec 32).toInt = 49999 := by decide
  have hbit : broadcastInDim S1015808x128 ![0] bcast_S1015808_S1015808x128_0
      (rowOk 49999#32 (wrappedCol 50000#32 P)) (ix2 e j) = 1#1 := by
    refine (broadcastInDim_apply ![0] bcast_S1015808_S1015808x128_0 _ (ix2 e j) (ix1 e)
      (fun a => match a with
        | ⟨0, _⟩ => by show e.val = if (1015808 : Nat) = 1 then 0 else e.val; rw [if_neg (by decide)])).trans ?_
    exact rowOk_apply 49999#32 _ e (by rw [hw]; exact h0) (by rw [hw, htop]; omega)
  unfold takenMovie
  refine (select_apply _ _ _ _).trans ?_
  rw [hbit, select_one,
    Cert.LibScatterGather2.gather_apply gather_S50000x128_S1015808x1_S1015808x128_1_0_n_n_0_1_1128 rfl rfl rfl rfl rfl
      tbl (wrappedCol 50000#32 P) e j (by norm_num) (by rw [hw]; exact hlt),
    rowAt_of_lt tbl _ hlt]
  exact congrArg tbl (congrArg (fun r => ix2 r j) (Fin.ext (congrArg BitVec.toNat hw)))

/-! ## A value written to a buffer and read back is the value -/

/-- A module-local operation writes its result through the buffer's own type and the next reads it back through
    the value's type: the two transports cancel. -/
theorem ofBuf_toBuf {T : BufTy} (x : TRef sig T) (v : T.Contents (Elt Ideal)) : x.ofBuf (x.toBuf v) = v := by
  obtain ⟨r, h, a, b⟩ := x
  subst h
  rfl

/-- The launch inputs and the two tables' buffers are read through their own types; the top of each taken array is
    written through its buffer's type. Each transport is along an equation of a type with itself. -/
theorem ofBuf_arg0 (h1 h2 h3) (v : (⟨S100000x128, .f32⟩ : BufTy).Contents (Elt Ideal)) :
    (TRef.of (T := ⟨S100000x128, .f32⟩) main_arg0 h1 h2 h3).ofBuf v = v := rfl
theorem ofBuf_arg1 (h1 h2 h3) (v : (⟨S50000x128, .f32⟩ : BufTy).Contents (Elt Ideal)) :
    (TRef.of (T := ⟨S50000x128, .f32⟩) main_arg1 h1 h2 h3).ofBuf v = v := rfl
theorem ofBuf_arg2 (h1 h2 h3) (v : (⟨S1000000, .i32⟩ : BufTy).Contents (Elt Ideal)) :
    (TRef.of (T := ⟨S1000000, .i32⟩) main_arg2 h1 h2 h3).ofBuf v = v := rfl
theorem ofBuf_arg3 (h1 h2 h3) (v : (⟨S1000000, .i32⟩ : BufTy).Contents (Elt Ideal)) :
    (TRef.of (T := ⟨S1000000, .i32⟩) main_arg3 h1 h2 h3).ofBuf v = v := rfl
theorem ofBuf_c (h1 h2 h3) (v : (⟨S_, .i32⟩ : BufTy).Contents (Elt Ideal)) :
    (TRef.of (T := ⟨S_, .i32⟩) main_c h1 h2 h3).ofBuf v = v := rfl
theorem ofBuf_c_0 (h1 h2 h3) (v : (⟨S_, .i32⟩ : BufTy).Contents (Elt Ideal)) :
    (TRef.of (T := ⟨S_, .i32⟩) main_c_0 h1 h2 h3).ofBuf v = v := rfl
theorem toBuf_v2 (h1 h2 h3) (v : (⟨S1015808x128, .f32⟩ : BufTy).Contents (Elt Ideal)) :
    (TRef.of (T := ⟨S1015808x128, .f32⟩) main_v2 h1 h2 h3).toBuf v = v := rfl
theorem toBuf_v4 (h1 h2 h3) (v : (⟨S1015808x128, .f32⟩ : BufTy).Contents (Elt Ideal)) :
    (TRef.of (T := ⟨S1015808x128, .f32⟩) main_v4 h1 h2 h3).toBuf v = v := rfl

variable (m : (ℓ : Loc nD τ sig) → Buf (Elt Ideal) ℓ)

/-! ## What the launch finds in its operand arrays -/

set_option maxHeartbeats 1000000 in
/-- The user operand: the user rows taken at the padded row words, in the narrower float format. -/
theorem staged_user (c : Dev nD) :
    V m c main_v3 = truncf .bf16 (takenUser (m (c, Proc.devRef .tc main_arg0)) (padded (m (c, Proc.devRef .tc main_arg2)))) bitsLt_bf16_f32 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp
  simp only [ofBuf_toBuf, ofBuf_arg0, ofBuf_arg2, ofBuf_c, toBuf_v2, id, takenUser, rowOk, wrappedCol, padded]

set_option maxHeartbeats 1000000 in
/-- The movie operand: the movie rows taken at the padded column words, in the narrower float format. -/
theorem staged_movie (c : Dev nD) :
    V m c main_v5 = truncf .bf16 (takenMovie (m (c, Proc.devRef .tc main_arg1)) (padded (m (c, Proc.devRef .tc main_arg3)))) bitsLt_bf16_f32 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp
  simp only [ofBuf_toBuf, ofBuf_arg1, ofBuf_arg3, ofBuf_c_0, toBuf_v4, id, takenMovie, rowOk, wrappedCol, padded]

set_option maxHeartbeats 1000000 in
/-- The first layer's weights: transposed, in the narrower float format. -/
theorem staged_w1 (c : Dev nD) :
    V m c main_v7 = (truncf .bf16 (transpose S256x128 [1, 0] (m (c, Proc.devRef .tc main_arg4) : FVec Ideal S128x256 .f32) transposes_S128x256_S256x128_1_0) bitsLt_bf16_f32 : FVec Ideal S256x128 .bf16) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp

set_option maxHeartbeats 1000000 in
/-- The second layer's weights: its one row as a vector. -/
theorem staged_w2 (c : Dev nD) :
    V m c main_v8 = shapeCast S128 (m (c, Proc.devRef .tc main_arg6)) shapeCasts_S1x128_S128 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp
  rfl

/-! ## The operand arrays at an entry -/

/-- The user operand's row e, for e below 1000000: the user table's row at row[e], when that word names a row. -/
theorem user_operand_apply (c : Dev nD) (e : Fin 1015808) (he : e.val < 1000000) (j : Fin 128)
    (h0 : 0 ≤ ((m (c, Proc.devRef .tc main_arg2) : IVec S1000000 32) (ix1 ⟨e.val, he⟩)).toInt)
    (h1 : ((m (c, Proc.devRef .tc main_arg2) : IVec S1000000 32) (ix1 ⟨e.val, he⟩)).toInt < 100000) :
    (V m c main_v3 : FVec Ideal S1015808x128 .bf16) (ix2 e j)
      = rowAt (m (c, Proc.devRef .tc main_arg0)) ((m (c, Proc.devRef .tc main_arg2) : IVec S1000000 32) (ix1 ⟨e.val, he⟩)).toNat j := by
  refine (congrFun (staged_user m c) (ix2 e j)).trans ?_
  refine (truncf_apply (ψ := .bf16) _ bitsLt_bf16_f32 _).trans ?_
  have hp := padded_apply (m (c, Proc.devRef .tc main_arg2)) e he
  rw [takenUser_apply _ _ e j (by rw [hp]; exact h0) (by rw [hp]; exact h1), hp]

/-- The movie operand's row e, for e below 1000000: the movie table's row at col[e], when that word names a row. -/
theorem movie_operand_apply (c : Dev nD) (e : Fin 1015808) (he : e.val < 1000000) (j : Fin 128)
    (h0 : 0 ≤ ((m (c, Proc.devRef .tc main_arg3) : IVec S1000000 32) (ix1 ⟨e.val, he⟩)).toInt)
    (h1 : ((m (c, Proc.devRef .tc main_arg3) : IVec S1000000 32) (ix1 ⟨e.val, he⟩)).toInt < 50000) :
    (V m c main_v5 : FVec Ideal S1015808x128 .bf16) (ix2 e j)
      = rowAt (m (c, Proc.devRef .tc main_arg1)) ((m (c, Proc.devRef .tc main_arg3) : IVec S1000000 32) (ix1 ⟨e.val, he⟩)).toNat j := by
  refine (congrFun (staged_movie m c) (ix2 e j)).trans ?_
  refine (truncf_apply (ψ := .bf16) _ bitsLt_bf16_f32 _).trans ?_
  have hp := padded_apply (m (c, Proc.devRef .tc main_arg3)) e he
  rw [takenMovie_apply _ _ e j (by rw [hp]; exact h0) (by rw [hp]; exact h1), hp]

/-- The first-layer operand at (q, k) is weight (k, q). -/
theorem w1_operand_apply (c : Dev nD) (q : Fin 256) (k : Fin 128) :
    (V m c main_v7 : FVec Ideal S256x128 .bf16) (ix2 q k) = (m (c, Proc.devRef .tc main_arg4) : FVec Ideal S128x256 .f32) (ix2 k q) :=
  (congrFun (staged_w1 m c) (ix2 q k)).trans ((truncf_apply (ψ := .bf16) _ bitsLt_bf16_f32 _).trans (transpose_ix2_apply _ _ q k))

/-- The second-layer operand at k is entry (0, k) of the second layer's one row. -/
theorem w2_operand_apply (c : Dev nD) (k : Fin 128) :
    (V m c main_v8 : FVec Ideal S128 .f32) (ix1 k) = (m (c, Proc.devRef .tc main_arg6) : FVec Ideal S1x128 .f32) (ix2 (0 : Fin 1) k) :=
  (congrFun (staged_w2 m c) (ix1 k)).trans (shapeCast_1a_a_apply _ _ k)

end Cert.Staged

end
-- ==== Proof.KernelRun.lean ====
/-
  The kernel's run, read: its result is the array of edge scores.

  After the launch the result array holds the scores of all 1015808 padded rows (Tiles.lean); the one host operation
  after it keeps the first 1000000 entries. Entry e of those is the score of row e of the two operand arrays, and
  row e of the user operand is the user table's row at row[e], of the movie operand the movie table's row at col[e]
  (Staged.lean), the first-layer operand is the weights transposed and the second-layer operand the second layer's row
  flattened: the edge score of EdgeScore.lean.
-/
import proofs.«425532_j68865505624265_4_alg».proof.Defs
import proofs.«425532_j68865505624265_4_alg».proof.Proof.Gen.KernelIdeal.Frame
import proofs.«425532_j68865505624265_4_alg».proof.Proof.EdgeScore
import proofs.«425532_j68865505624265_4_alg».proof.Proof.Tiles
import proofs.«425532_j68865505624265_4_alg».proof.Proof.Staged
import Idealize.ShloMosaic.Lib.StableHlo.Run
import Idealize.ShloMosaic.Lib.Pipeline.Value
import Idealize.ShloMosaic.Lib.ValueIdx

noncomputable section

namespace Cert.KernelRun

open Cert.KernelIdeal Cert.KernelIdeal.Gen Idealize.ShloMosaic Idealize.ShloMosaic.TcCoe Idealize.ShloMosaic.ValueIdx
open Idealize.ShloMosaic.StableHlo Idealize.SL.Sem Cert.EdgeScore
open Idealize.ShloMosaic.Pipeline (Dat)

variable (m : (ℓ : Loc nD τ sig) → Buf (Elt Ideal) ℓ) (ρ : Dev nD → PrngReg)

/-- The one host operation after the launch: the first 1000000 entries of the launch's result array. -/
theorem tail_slice (c : Dev nD) :
    Pipeline.afterTail₀ cfgs (dats m) 0 (V0 m) [hostOps1] c main_v10
      = extractStridedSlice S1000000 ![0]
          (Cert.Tiles.scored (Cert.Tiles.userArr m c) (Cert.Tiles.movieArr m c) (Cert.Tiles.w1Arr m c) (Cert.Tiles.b1Arr m c)
            (Cert.Tiles.w2Arr m c) (Cert.Tiles.b2Arr m c)) slices_S1015808_S1000000_0 := by
  unfold Pipeline.afterTail₀
  show StableHlo.after hostOps1 _ (Proc.devRef .tc main_v10) = _
  after_results
  exact congrArg (fun X => extractStridedSlice S1000000 ![0] X slices_S1015808_S1000000_0)
    ((Pipeline.withArrays_arr spec0 launch0.win.arr_inj c (V0 m c) (fun w => (dats m 0 c).arrAt w cfg0.N) 6).trans (Cert.Tiles.final m c))

/-- Entry e of the padded scores, for e below 1000000, is the score of edge e. -/
theorem scored_apply (c : Dev nD)
    (hrow : ∀ e : Fin 1000000, 0 ≤ ((m (c, Proc.devRef .tc main_arg2) : IVec S1000000 32) (ix1 e)).toInt
      ∧ ((m (c, Proc.devRef .tc main_arg2) : IVec S1000000 32) (ix1 e)).toInt < 100000)
    (hcol : ∀ e : Fin 1000000, 0 ≤ ((m (c, Proc.devRef .tc main_arg3) : IVec S1000000 32) (ix1 e)).toInt
      ∧ ((m (c, Proc.devRef .tc main_arg3) : IVec S1000000 32) (ix1 e)).toInt < 50000)
    (e : Fin 1000000) (h : e.val < 1015808) :
    Cert.Tiles.scored (Cert.Tiles.userArr m c) (Cert.Tiles.movieArr m c) (Cert.Tiles.w1Arr m c) (Cert.Tiles.b1Arr m c)
        (Cert.Tiles.w2Arr m c) (Cert.Tiles.b2Arr m c) (ix1 ⟨e.val, h⟩)
      = edgeScores (m (c, Proc.devRef .tc main_arg0)) (m (c, Proc.devRef .tc main_arg1)) (m (c, Proc.devRef .tc main_arg2))
          (m (c, Proc.devRef .tc main_arg3)) (m (c, Proc.devRef .tc main_arg4)) (m (c, Proc.devRef .tc main_arg5))
          (m (c, Proc.devRef .tc main_arg6)) (m (c, Proc.devRef .tc main_arg7)) (ix1 e) := by
  have hu : (fun j => Cert.Tiles.userArr m c (ix2 ⟨e.val, h⟩ j))
      = rowAt (m (c, Proc.devRef .tc main_arg0)) ((m (c, Proc.devRef .tc main_arg2) : IVec S1000000 32) (ix1 e)).toNat :=
    funext fun j => Cert.Staged.user_operand_apply m c ⟨e.val, h⟩ e.isLt j (hrow e).1 (hrow e).2
  have hm : (fun j => Cert.Tiles.movieArr m c (ix2 ⟨e.val, h⟩ j))
      = rowAt (m (c, Proc.devRef .tc main_arg1)) ((m (c, Proc.devRef .tc main_arg3) : IVec S1000000 32) (ix1 e)).toNat :=
    funext fun j => Cert.Staged.movie_operand_apply m c ⟨e.val, h⟩ e.isLt j (hcol e).1 (hcol e).2
  have hw1 : (fun (k : Fin 128) (q : Fin 256) => Cert.Tiles.w1Arr m c (ix2 q k))
      = fun k q => (m (c, Proc.devRef .tc main_arg4) : FVec Ideal S128x256 .f32) (ix2 k q) :=
    funext fun k => funext fun q => Cert.Staged.w1_operand_apply m c q k
  have hb1 : (fun k : Fin 128 => Cert.Tiles.b1Arr m c (ix1 k))
      = fun k => (m (c, Proc.devRef .tc main_arg5) : FVec Ideal S128 .f32) (ix1 k) :=
    funext fun k => congrFun (V_main_arg5 m c) (ix1 k)
  have hw2 : (fun k : Fin 128 => Cert.Tiles.w2Arr m c (ix1 k))
      = fun k => (m (c, Proc.devRef .tc main_arg6) : FVec Ideal S1x128 .f32) (ix2 (0 : Fin 1) k) :=
    funext fun k => Cert.Staged.w2_operand_apply m c k
  have hb2 : Cert.Tiles.b2Arr m c (ix1 (0 : Fin 1)) = (m (c, Proc.devRef .tc main_arg7) : FVec Ideal S1 .f32) (ix1 (0 : Fin 1)) :=
    congrFun (V_main_arg7 m c) (ix1 0)
  unfold Cert.Tiles.scored edgeScores
  exact congr (congr (congr (congr (congr (congrArg score hu) hm) hw1) hb1) hw2) hb2

/-- The kept entries of the padded scores are the edge scores. -/
theorem kept_eq (c : Dev nD)
    (hrow : ∀ e : Fin 1000000, 0 ≤ ((m (c, Proc.devRef .tc main_arg2) : IVec S1000000 32) (ix1 e)).toInt
      ∧ ((m (c, Proc.devRef .tc main_arg2) : IVec S1000000 32) (ix1 e)).toInt < 100000)
    (hcol : ∀ e : Fin 1000000, 0 ≤ ((m (c, Proc.devRef .tc main_arg3) : IVec S1000000 32) (ix1 e)).toInt
      ∧ ((m (c, Proc.devRef .tc main_arg3) : IVec S1000000 32) (ix1 e)).toInt < 50000) :
    extractStridedSlice S1000000 ![0]
        (Cert.Tiles.scored (Cert.Tiles.userArr m c) (Cert.Tiles.movieArr m c) (Cert.Tiles.w1Arr m c) (Cert.Tiles.b1Arr m c)
          (Cert.Tiles.w2Arr m c) (Cert.Tiles.b2Arr m c)) slices_S1015808_S1000000_0
      = edgeScores (m (c, Proc.devRef .tc main_arg0)) (m (c, Proc.devRef .tc main_arg1)) (m (c, Proc.devRef .tc main_arg2))
          (m (c, Proc.devRef .tc main_arg3)) (m (c, Proc.devRef .tc main_arg4)) (m (c, Proc.devRef .tc main_arg5))
          (m (c, Proc.devRef .tc main_arg6)) (m (c, Proc.devRef .tc main_arg7)) := by
  funext i
  obtain ⟨e, rfl⟩ : ∃ e : Fin 1000000, i = ix1 e := ⟨i 0, eq_ix1 i⟩
  have h : e.val < 1015808 := by have := e.isLt; omega
  refine (extractStridedSlice_apply ![0] _ slices_S1015808_S1000000_0 (ix1 e) (ix1 ⟨e.val, h⟩)
    (fun a => match a with | ⟨0, _⟩ => by show e.val = 0 + e.val; omega)).trans ?_
  exact scored_apply m c hrow hcol e h

/-- THE KERNEL'S RUN: every weakly fair execution ends with the result at the edge scores and the arguments unchanged,
    when every index word names a row of its table. -/
theorem run
    (hrow : ∀ (c : Dev nD) (e : Fin 1000000), 0 ≤ ((m (c, Proc.devRef .tc main_arg2) : IVec S1000000 32) (ix1 e)).toInt
      ∧ ((m (c, Proc.devRef .tc main_arg2) : IVec S1000000 32) (ix1 e)).toInt < 100000)
    (hcol : ∀ (c : Dev nD) (e : Fin 1000000), 0 ≤ ((m (c, Proc.devRef .tc main_arg3) : IVec S1000000 32) (ix1 e)).toInt
      ∧ ((m (c, Proc.devRef .tc main_arg3) : IVec S1000000 32) (ix1 e)).toInt < 50000) :
    θ_run defs (onTc (τ := τ) (main (F := Ideal))) ⟨m, fun _ => 0, ρ⟩ (fun r => ∀ c : Dev nD,
      r.2.mem ((c.tc : Thread nD τ).loc main_v10)
          = edgeScores (m (c, Proc.devRef .tc main_arg0)) (m (c, Proc.devRef .tc main_arg1)) (m (c, Proc.devRef .tc main_arg2))
              (m (c, Proc.devRef .tc main_arg3)) (m (c, Proc.devRef .tc main_arg4)) (m (c, Proc.devRef .tc main_arg5))
              (m (c, Proc.devRef .tc main_arg6)) (m (c, Proc.devRef .tc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v10 (Pipeline.mem_restRefs_of main_v10 (by decide) (by decide))).trans
        ((tail_slice m c).trans (kept_eq m c (hrow c) (hcol c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c)))⟩)
    (run_main m ρ)

end Cert.KernelRun

end
-- ==== Proof.lean ====
/-
  The certificate's five claims for the edge-score kernel against its reference.

  Both programs score each of 1000000 edges by a two-layer perceptron on the joined embedding rows of the edge's user
  and movie (Proof/EdgeScore.lean). The kernel gathers the rows on the host (a gather that fills rows whose index word
  is out of range with a fixed pattern), pads the edges to 124 tiles of 8192, scores a tile per grid point and keeps the
  first 1000000 scores; the reference gathers (clamping an out-of-range word), multiplies, rectifies and multiplies
  again over whole arrays. Under the precondition — every float input finite, every word of row in [0, 100000) and
  every word of col in [0, 50000) — no guard of either gather binds and both results are the array of edge scores:
    • the reference: Proof/RefEdges.lean, over its generated run read one operation at a time;
    • the kernel: Proof/KernelRun.lean, over the generated frame run (Proof/TileScore.lean for one tile,
      Proof/Tiles.lean for the array the tiles make up, Proof/Staged.lean for what the host prepared).
  Finiteness is never used: the two sides are the same sums of the same products in the same order. The frames of the two
  kernel programs are the generated ones; the reference's is its generated run with the result dropped; the ideal pass
  rewrote nothing, so there is nothing to preserve.
-/
import proofs.«425532_j68865505624265_4_alg».proof.Defs
import proofs.«425532_j68865505624265_4_alg».proof.Proof.Gen.Kernel
import proofs.«425532_j68865505624265_4_alg».proof.Proof.Gen.Kernel.Frame
import proofs.«425532_j68865505624265_4_alg».proof.Proof.Gen.KernelIdeal
import proofs.«425532_j68865505624265_4_alg».proof.Proof.Gen.KernelIdeal.Frame
import proofs.«425532_j68865505624265_4_alg».proof.Proof.Gen.ReferenceIdeal
import proofs.«425532_j68865505624265_4_alg».proof.Proof.Gen.ReferenceIdeal.Run
import proofs.«425532_j68865505624265_4_alg».proof.Proof.Gen.ReferenceIdeal.Read
import proofs.«425532_j68865505624265_4_alg».proof.Proof.Gen.Pre_finite_inputs
import proofs.«425532_j68865505624265_4_alg».proof.Proof.EdgeScore
import proofs.«425532_j68865505624265_4_alg».proof.Proof.IndexRange
import proofs.«425532_j68865505624265_4_alg».proof.Proof.RefEdges
import proofs.«425532_j68865505624265_4_alg».proof.Proof.KernelRun
import Idealize.ShloMosaic.Adequacy
import Idealize.ShloMosaic.Init

noncomputable section

namespace Cert.Proof

open Idealize.ShloMosaic Idealize.ShloMosaic.ValueIdx Idealize.SL.Sem Cert.EdgeScore

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the array of edge scores of those arguments. -/
theorem algebraic : Cert.algebraic_KernelIdeal_ReferenceIdeal := by
  intro m ρ m' ρ' hpre hagree
  have hr := fun c : Dev Cert.KernelIdeal.nD => Cert.IndexRange.index_ranges _ _ _ _ _ _ _ _ (hpre c)
  refine ⟨_, Cert.KernelRun.run m ρ (fun c e => (hr c).1 (ix1 e)) (fun c e => (hr c).2 (ix1 e)), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v26_eq, a0, a1, a2, a3, a4, a5, a6, a7]
  exact Cert.RefEdges.result_eq _ _ _ _ _ _ _ _ (fun e => (hr c).1 (ix1 e)) (fun e => (hr c).2 (ix1 e))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
